-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_v4) = v3 c
          ∧ r.2.mem ((c.tc : Thread Cert.ReferenceIdeal.nD Cert.ReferenceIdeal.τ).loc Cert.ReferenceIdeal.main_v5) = v4 c
          ∧ r.2.mem ((c.tc : Thread Cert.ReferenceIdeal.nD Cert.ReferenceIdeal.τ).loc Cert.ReferenceIdeal.main_v6) = v5 c
          ∧ r.2.mem ((c.tc : Thread Cert.ReferenceIdeal.nD Cert.ReferenceIdeal.τ).loc Cert.ReferenceIdeal.main_v7) = v6 c
          ∧ r.2.mem ((c.tc : Thread Cert.ReferenceIdeal.nD Cert.ReferenceIdeal.τ).loc Cert.ReferenceIdeal.main_v8) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  main_v3
-- ==== Kernel.lean ====
abbrev S16384x4096 : Shape := ⟨2, ![16384, 4096]⟩
abbrev S16384x256 : Shape := ⟨2, ![16384, 256]⟩
abbrev S512x4096 : Shape := ⟨2, ![512, 4096]⟩
abbrev S512x256 : Shape := ⟨2, ![512, 256]⟩
abbrev S512x32 : Shape := ⟨2, ![512, 32]⟩

abbrev nBuf : Space → Nat
  | .hbm => 9
  | .vmem => 18
  | .smem => 0
  | _ => 0

abbrev bufTy : (tb : Table) → Fin (tcTables nBuf tb) → BufTy
  | .hbm, ⟨0, _⟩ => ⟨S16384x4096, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S16384x256, .f32⟩
  | .local _ .vmem, ⟨0, _⟩ => ⟨S512x4096, .f32⟩
  | .local _ .vmem, ⟨1, _⟩ => ⟨S512x4096, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_v0_5 : Ref sig .tc := ⟨.hbm, 6, rfl⟩
abbrev main_v0_6 : Ref sig .tc := ⟨.hbm, 7, rfl⟩
abbrev main_v0_7 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S512x4096_S512x4096_0_0 : ∀ a, (![0, 0] : Fin 2 → Nat) a + S512x4096.size a ≤ S512x4096.size a
  h_S512x4096 : 0 < S512x4096.numel
  slices_S512x4096_o0_0_S512x32 : S512x4096.Slices ![0, 0] S512x32
  slices_S512x4096_o0_64_S512x32 : S512x4096.Slices ![0, 64] S512x32
  slices_S512x4096_o0_128_S512x32 : S512x4096.Slices ![0, 128] S512x32
  slices_S512x4096_o0_192_S512x32 : S512x4096.Slices ![0, 192] S512x32
  slices_S512x4096_o0_256_S512x32 : S512x4096.Slices ![0, 256] S512x32
  slices_S512x4096_o0_320_S512x32 : S512x4096.Slices ![0, 320] S512x32
  slices_S512x4096_o0_384_S512x32 : S512x4096.Slices ![0, 384] S512x32
  slices_S512x4096_o0_448_S512x32 : S512x4096.Slices ![0, 448] S512x32
  concatenates_S512x32_S512x32_S512x32_S512x32_S512x32_S512x32_S512x32_S512x32_S512x256_d1 : Shape.Concatenates [S512x32, S512x32, S512x32, S512x32, S512x32, S512x32, S512x32, S512x32] S512x256 1
  inb_S512x256_S512x256_0_0 : ∀ a, (![0, 0] : Fin 2 → Nat) a + S512x256.size a ≤ S512x256.size a
  h_S512x256 : 0 < S512x256.numel
  slices_S512x4096_o0_512_S512x32 : S512x4096.Slices ![0, 512] S512x32
  slices_S512x4096_o0_576_S512x32 : S512x4096.Slices ![0, 576] S512x32
  slices_S512x4096_o0_640_S512x32 : S512x4096.Slices ![0, 640] S512x32
  slices_S512x4096_o0_704_S512x32 : S512x4096.Slices ![0, 704] S512x32
  slices_S512x4096_o0_768_S512x32 : S512x4096.Slices ![0, 768] S512x32
  slices_S512x4096_o0_832_S512x32 : S512x4096.Slices ![0, 832] S512x32
  slices_S512x4096_o0_896_S512x32 : S512x4096.Slices ![0, 896] S512x32
  slices_S512x4096_o0_960_S512x32 : S512x4096.Slices ![0, 960] S512x32
  slices_S512x4096_o0_1024_S512x32 : S512x4096.Slices ![0, 1024] S512x32
  slices_S512x4096_o0_1088_S512x32 : S512x4096.Slices ![0, 1088] S512x32
  slices_S512x4096_o0_1152_S512x32 : S512x4096.Slices ![0, 1152] S512x32
  slices_S512x4096_o0_1216_S512x32 : S512x4096.Slices ![0, 1216] S512x32
  slices_S512x4096_o0_1280_S512x32 : S512x4096.Slices ![0, 1280] S512x32
  slices_S512x4096_o0_1344_S512x32 : S512x4096.Slices ![0, 1344] S512x32
  slices_S512x4096_o0_1408_S512x32 : S512x4096.Slices ![0, 1408] S512x32
  slices_S512x4096_o0_1472_S512x32 : S512x4096.Slices ![0, 1472] S512x32
  slices_S512x4096_o0_1536_S512x32 : S512x4096.Slices ![0, 1536] S512x32
  slices_S512x4096_o0_1600_S512x32 : S512x4096.Slices ![0, 1600] S512x32
  slices_S512x4096_o0_1664_S512x32 : S512x4096.Slices ![0, 1664] S512x32
  slices_S512x4096_o0_1728_S512x32 : S512x4096.Slices ![0, 1728] S512x32
  slices_S512x4096_o0_1792_S512x32 : S512x4096.Slices ![0, 1792] S512x32
  slices_S512x4096_o0_1856_S512x32 : S512x4096.Slices ![0, 1856] S512x32
  slices_S512x4096_o0_1920_S512x32 : S512x4096.Slices ![0, 1920] S512x32
  slices_S512x4096_o0_1984_S512x32 : S512x4096.Slices ![0, 1984] S512x32
  slices_S512x4096_o0_2048_S512x32 : S512x4096.Slices ![0, 2048] S512x32
  slices_S512x4096_o0_2112_S512x32 : S512x4096.Slices ![0, 2112] S512x32
  slices_S512x4096_o0_2176_S512x32 : S512x4096.Slices ![0, 2176] S512x32
  slices_S512x4096_o0_2240_S512x32 : S512x4096.Slices ![0, 2240] S512x32
  slices_S512x4096_o0_2304_S512x32 : S512x4096.Slices ![0, 2304] S512x32
  slices_S512x4096_o0_2368_S512x32 : S512x4096.Slices ![0, 2368] S512x32
  slices_S512x4096_o0_2432_S512x32 : S512x4096.Slices ![0, 2432] S512x32
  slices_S512x4096_o0_2496_S512x32 : S512x4096.Slices ![0, 2496] S512x32
  slices_S512x4096_o0_2560_S512x32 : S512x4096.Slices ![0, 2560] S512x32
  slices_S512x4096_o0_2624_S512x32 : S512x4096.Slices ![0, 2624] S512x32
  slices_S512x4096_o0_2688_S512x32 : S512x4096.Slices ![0, 2688] S512x32
  slices_S512x4096_o0_2752_S512x32 : S512x4096.Slices ![0, 2752] S512x32
  slices_S512x4096_o0_2816_S512x32 : S512x4096.Slices ![0, 2816] S512x32
  slices_S512x4096_o0_2880_S512x32 : S512x4096.Slices ![0, 2880] S512x32
  slices_S512x4096_o0_2944_S512x32 : S512x4096.Slices ![0, 2944] S512x32
  slices_S512x4096_o0_3008_S512x32 : S512x4096.Slices ![0, 3008] S512x32
  slices_S512x4096_o0_3072_S512x32 : S512x4096.Slices ![0, 3072] S512x32
  slices_S512x4096_o0_3136_S512x32 : S512x4096.Slices ![0, 3136] S512x32
  slices_S512x4096_o0_3200_S512x32 : S512x4096.Slices ![0, 3200] S512x32
  slices_S512x4096_o0_3264_S512x32 : S512x4096.Slices ![0, 3264] S512x32
  slices_S512x4096_o0_3328_S512x32 : S512x4096.Slices ![0, 3328] S512x32
  slices_S512x4096_o0_3392_S512x32 : S512x4096.Slices ![0, 3392] S512x32
  slices_S512x4096_o0_3456_S512x32 : S512x4096.Slices ![0, 3456] S512x32
  slices_S512x4096_o0_3520_S512x32 : S512x4096.Slices ![0, 3520] S512x32
  slices_S512x4096_o0_3584_S512x32 : S512x4096.Slices ![0, 3584] S512x32
  slices_S512x4096_o0_3648_S512x32 : S512x4096.Slices ![0, 3648] S512x32
  slices_S512x4096_o0_3712_S512x32 : S512x4096.Slices ![0, 3712] S512x32
  slices_S512x4096_o0_3776_S512x32 : S512x4096.Slices ![0, 3776] S512x32
  slices_S512x4096_o0_3840_S512x32 : S512x4096.Slices ![0, 3840] S512x32
  slices_S512x4096_o0_3904_S512x32 : S512x4096.Slices ![0, 3904] S512x32
  slices_S512x4096_o0_3968_S512x32 : S512x4096.Slices ![0, 3968] S512x32
  slices_S512x4096_o0_4032_S512x32 : S512x4096.Slices ![0, 4032] S512x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S16384x256.size a
  hwx0_1 : ∀ i : grid0.Coords, EltTy.bits .f32 = 32 ∨ (Rect.block (s := S16384x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S16384x256.size a
  hwx0_2 : ∀ i : grid0.Coords, EltTy.bits .f32 = 32 ∨ (Rect.block (s := S16384x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S16384x256.size a
  hwx0_3 : ∀ i : grid0.Coords, EltTy.bits .f32 = 32 ∨ (Rect.block (s := S16384x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S16384x256.size a
  hwx0_4 : ∀ i : grid0.Coords, EltTy.bits .f32 = 32 ∨ (Rect.block (s := S16384x256) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S16384x256.size a
  hwx0_5 : ∀ i : grid0.Coords, EltTy.bits .f32 = 32 ∨ (Rect.block (s := S16384x256) S512x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S16384x256.size a
  hwx0_6 : ∀ i : grid0.Coords, EltTy.bits .f32 = 32 ∨ (Rect.block (s := S16384x256) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S16384x256.size a
  hwx0_7 : ∀ i : grid0.Coords, EltTy.bits .f32 = 32 ∨ (Rect.block (s := S16384x256) S512x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S16384x256.size a
  hwx0_8 : ∀ i : grid0.Coords, EltTy.bits .f32 = 32 ∨ (Rect.block (s := S16384x256) S512x256.size (cc0_transform_8 i) (hinb0_8 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S512x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S512x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_3) S512x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_4) S512x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_5) S512x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_6) S512x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_7) S512x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S16384x2048 : Shape := ⟨2, ![16384, 2048]⟩
abbrev S16384x256 : Shape := ⟨2, ![16384, 256]⟩

abbrev nBuf : Space → Nat
  | .hbm => 33
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2048, .i32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S1, .i32⟩
  | .hbm, ⟨11, _⟩ => ⟨S_, .i32⟩
  | .hbm, ⟨12, _⟩ => ⟨S2048x1, .i32⟩
  | .hbm, ⟨13, _⟩ => ⟨S2048x1, .i1⟩
  | .hbm, ⟨14, _⟩ => ⟨S1x1, .i32⟩
  | .hbm, ⟨15, _⟩ => ⟨S2048x1, .i32⟩
  | .hbm, ⟨16, _⟩ => ⟨S2048x1, .i1⟩
  | .hbm, ⟨17, _⟩ => ⟨S2048x1, .i1⟩
  | .hbm, ⟨18, _⟩ => ⟨S_, .i1⟩
  | .hbm, ⟨19, _⟩ => ⟨S2048, .i1⟩
  | .hbm, ⟨20, _⟩ => ⟨S16384x2048, .f32⟩
  | .hbm, ⟨21, _⟩ => ⟨S16384x2048, .i1⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S16384x256, .f32⟩
  | .hbm, ⟨26, _⟩ => ⟨S16384x256, .f32⟩
  | .hbm, ⟨27, _⟩ => ⟨S16384x256, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S16384x256, .f32⟩
  | .hbm, ⟨32, _⟩ => ⟨S16384x256, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  h_S_ : 0 < S_.numel
  bcast_S2048_S16384x2048_1 : S2048.BroadcastsInDim S16384x2048 (![1] : Fin 1 → Fin S16384x2048.rank)
  bcast_S_S16384x2048 : S_.BroadcastsInDim S16384x2048 (![] : Fin 0 → Fin S16384x2048.rank)
  slices_S16384x2048_S16384x256_0_0 : S16384x2048.Slices ![0, 0] S16384x256
  slices_S16384x2048_S16384x256_0_256 : S16384x2048.Slices ![0, 256] S16384x256
  slices_S16384x2048_S16384x256_0_512 : S16384x2048.Slices ![0, 512] S16384x256
  slices_S16384x2048_S16384x256_0_768 : S16384x2048.Slices ![0, 768] S16384x256
  slices_S16384x2048_S16384x256_0_1024 : S16384x2048.Slices ![0, 1024] S16384x256
  slices_S16384x2048_S16384x256_0_1280 : S16384x2048.Slices ![0, 1280] S16384x256
  slices_S16384x2048_S16384x256_0_1536 : S16384x2048.Slices ![0, 1536] S16384x256
  slices_S16384x2048_S16384x256_0_1792 : S16384x2048.Slices ![0, 1792] S16384x256
  gather_S16384x4096_S2048x1_S16384x2048_0_1_n_n_1_1_163841_wf : GatherDims.WF S16384x4096 S2048x1 S16384x2048 [0] [1] [] [1] [] 1 ![16384, 1]

variable [Facts₀]

def gather_S16384x4096_S2048x1_S16384x2048_0_1_n_n_1_1_163841 : GatherDims S16384x4096 S2048x1 S16384x2048 where
  offsetDims := [0]
  collapsedSliceDims := [1]
  operandBatchingDims := []
  startIndicesBatchingDims := []
  startIndexMap := [1]
  indexVectorDim := 1
  sliceSizes := ![16384, 1]
  wf := gather_S16384x4096_S2048x1_S16384x2048_0_1_n_n_1_1_163841_wf

class Facts : Prop extends Facts₀ where

variable [Facts]
-- ==== Proof.ColumnPick.lean ====
/-
  Which input column each output column of each group holds.

  The input is a matrix of 4096 columns; there are eight outputs ("groups") of 256 columns each.  Group `g` draws on the
  512 input columns from `512 g` on, cut into eight chunks of 64, and keeps the first 32 columns of each chunk, laid end
  to end: output column `q` of group `g` is input column `512 g + 64 (q / 32) + q % 32`.  The rows pass through unchanged.
-/
import Idealize.ShloMosaic.Lib.ValueIdx

noncomputable section

namespace Cert.ColumnPick

open Idealize.ShloMosaic Idealize.ShloMosaic.ValueIdx

/-- The input column that output column `q` of group `g` holds. -/
def srcCol (g q : Nat) : Nat := g * 512 + q / 32 * 64 + q % 32

/-- It is one of the 4096 input columns. -/
theorem srcCol_lt {g q : Nat} (hg : g < 8) (hq : q < 256) : srcCol g q < 4096 := by
  unfold srcCol; omega

/-- The whole input's shape, and one group's. -/
abbrev SIn : Shape := ⟨2, ![16384, 4096]⟩
abbrev SOut : Shape := ⟨2, ![16384, 256]⟩

/-- Group `g` of an input array `x`: row by row, the kept columns. -/
def pick {α : Type} (g : Nat) (hg : g < 8) (x : SIn.Idx → α) : SOut.Idx → α :=
  fun i => x (ix2 ⟨(i 0).val, idx2_lt0 i⟩ ⟨srcCol g (i 1).val, srcCol_lt hg (idx2_lt1 i)⟩)

/-- `pick` read at coordinates. -/
theorem pick_apply {α : Type} (g : Nat) (hg : g < 8) (x : SIn.Idx → α) (r : Fin 16384) (q : Fin 256) :
    pick g hg x (ix2 r q) = x (ix2 r ⟨srcCol g q.val, srcCol_lt hg q.isLt⟩) := rfl

/-- `pick` at any index whose coordinates are known. -/
theorem pick_at {α : Type} (g : Nat) (hg : g < 8) (x : SIn.Idx → α) (i : SOut.Idx) (r : Fin 16384) (q : Nat) (hq : q < 256)
    (h0 : (i 0).val = r.val) (h1 : (i 1).val = q) :
    pick g hg x i = x (ix2 r ⟨srcCol g q, srcCol_lt hg hq⟩) := by
  obtain rfl : r = ⟨(i 0).val, idx2_lt0 i⟩ := Fin.ext h0.symm
  subst h1
  rfl

end Cert.ColumnPick

end
-- ==== Proof.KernelGroups.lean ====
/-
  What the idealized kernel leaves in each of its eight output arrays.

  The grid has 32 points; point `t` stages rows `512 t … 512 t + 511` of the input (all 4096 columns) and of every
  output (256 columns).  For group `g` the body stores, whole, the concatenation along the columns of eight 32-wide
  slices of the staged input block, the `n`-th from column `512 g + 64 n`: so the staged output block holds at
  `(p, q)` the input block's `(p, 512 g + 64 (q / 32) + q % 32)`.  The blocks of the 32 points tile each output array, so
  the array ends as the kept columns of the whole input (`ColumnPick.pick g`).
-/
import proofs.«105500_j5720896438285_1_alg».proof.Proof.Gen.KernelIdeal.Value
import proofs.«105500_j5720896438285_1_alg».proof.Proof.ColumnPick
import Idealize.ShloMosaic.Lib.ValueLayout

noncomputable section

namespace Cert.KernelIdeal.Groups

open Cert.KernelIdeal Cert.KernelIdeal.Gen Idealize.ShloMosaic Idealize.ShloMosaic.TcCoe Idealize.SL.Sem
open Idealize.ShloMosaic.Pipeline (Dat)
open Idealize.ShloMosaic.ValueIdx Cert.ColumnPick

variable {F : FTy → Type} [FloatOps F]

/-- The zero offsets of a whole-block access, however spelt. -/
theorem hz : (![0, 0] : Fin 2 → Nat) = fun _ => 0 := funext fun a => by fin_cases a <;> rfl

/-! ## One staged block: the stored concatenation read at a coordinate -/

/-- Group 0's staged output block at `(p, q)` is the staged input block at the kept column. -/
theorem block1_apply (x0 : Vec F S512x4096 .f32) (p : Fin 512) (q : Fin 256) :
    out0_1 x0 (ix2 p q) = x0 (ix2 p ⟨srcCol 0 q.val, srcCol_lt (by decide) q.isLt⟩) := by
  have hq := q.isLt
  unfold out0_1
  rw [Value.canon1_eq, View.ld_unit_zero (S := S512x4096) hz]
  show Value.Cat1_0 x0 (Value.csel1_0 (ix2 p q)) (Value.ix1_0 (ix2 p q)) = _
  have hidx : Value.ix1_0 (ix2 p q) = ix2 p ⟨q.val % 32, by omega⟩ := by
    funext a; match a with | ⟨0, _⟩ => rfl | ⟨1, _⟩ => rfl
  rw [hidx]
  obtain ⟨n, hn⟩ : ∃ n : Fin 8, Value.csel1_0 (ix2 p q) = n := ⟨_, rfl⟩
  have hnv : q.val / 32 = n.val := congrArg Fin.val hn
  rw [hn]
  match n, hnv with
  | ⟨0, _⟩, h | ⟨1, _⟩, h | ⟨2, _⟩, h | ⟨3, _⟩, h | ⟨4, _⟩, h | ⟨5, _⟩, h | ⟨6, _⟩, h | ⟨7, _⟩, h =>
    exact slice2_axis1_apply _ x0 _ p _ _ (by
      try dsimp only at h
      show srcCol _ _ = _ + q.val % 32
      unfold srcCol; omega)

/-! ## From the staged blocks to the arrays -/

variable (m : (ℓ : Loc nD τ sig) → Buf (Elt F) ℓ) (ρ : Dev nD → PrngReg)

/-- The printed index maps, decided over the 32 grid points: every window's block row is the point's number and
    its block column is 0. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- The whole input as the region finds it, at its literal type. -/
abbrev xarr (c : Dev nD) : S16384x4096.Idx → Elt F .f32 := V m c main_arg0

/-- Group `g` of the input as the region finds it. -/
abbrev grp (g : Nat) (hg : g < 8) (c : Dev nD) : S16384x256.Idx → Elt F .f32 := pick g hg (xarr m c)

/-- The staged input block of point `t` at `(p, k)` is the input at row `512 t + p`, column `k`. -/
theorem iblk_apply (c : Dev nD) (t : Fin cfg0.N) (p : Fin 512) (k : Fin 4096) (hr : t.val * 512 + p.val < 16384) :
    iblk m c 0 t (ix2 p k) = xarr m c (ix2 ⟨t.val * 512 + p.val, hr⟩ k) := by
  obtain ⟨⟨e0, e1⟩, -⟩ := idx_facts t
  show xarr m c (((cfg0.win 0).blk t).view.emb (ix2 p k)) = _
  congr 1
  funext a; apply Fin.ext
  match a with
  | ⟨0, _⟩ => show win0_0.index t (0 : Fin 2) * 512 + 1 * p.val = t.val * 512 + p.val; omega
  | ⟨1, _⟩ => show win0_0.index t (1 : Fin 2) * 4096 + 1 * k.val = k.val; omega

/-! ### Group 0 (output window 1) -/

/-- What point `t` writes back to group 0's array is block `t` of the kept columns of the input. -/
theorem flushed1_eq (c : Dev nD) (t : Fin cfg0.N) :
    (dats m 0 c).flushed 1 t = ((cfg0.win 1).blk t).view.read (Elt F) (grp m 0 (by decide) c) := by
  rw [Value.flushed1]
  funext j
  have ht : t.val < 32 := t.isLt
  obtain ⟨-, ⟨e0, e1⟩, -⟩ := idx_facts t
  have hj0 : (j 0).val < 512 := (j 0).isLt
  have hj1 : (j 1).val < 256 := (j 1).isLt
  have hj : j = ix2 (⟨(j 0).val, hj0⟩ : Fin 512) (⟨(j 1).val, hj1⟩ : Fin 256) := by
    funext a; match a with | ⟨0, _⟩ => rfl | ⟨1, _⟩ => rfl
  show out0_1 (iblk m c 0 t) j = grp m 0 (by decide) c (((cfg0.win 1).blk t).view.emb j)
  refine (congrArg (out0_1 (iblk m c 0 t)) hj).trans ?_
  refine (block1_apply (iblk m c 0 t) ⟨(j 0).val, hj0⟩ ⟨(j 1).val, hj1⟩).trans ?_
  refine (iblk_apply m c t ⟨(j 0).val, hj0⟩ _ (by show t.val * 512 + (j 0).val < 16384; omega)).trans ?_
  exact (pick_at 0 (by decide) (xarr m c) (((cfg0.win 1).blk t).view.emb j) _ (j 1).val hj1
    (by show win0_1.index t (0 : Fin 2) * 512 + 1 * (j 0).val = t.val * 512 + (j 0).val; omega)
    (by show win0_1.index t (1 : Fin 2) * 256 + 1 * (j 1).val = (j 1).val; omega)).symm

/-- An index is in point `t`'s block of group 0's array iff each coordinate is in the block's range. -/
theorem mem_blk1 (t : Fin cfg0.N) (i : S16384x256.Idx) :
    i ∈ ((cfg0.win 1).blk t).view.set ↔ ∀ a : Fin 2, win0_1.index t a * S512x256.size a ≤ (i a).val ∧ (i a).val < win0_1.index t a * S512x256.size a + S512x256.size a := by
  show i ∈ ((View.whole main_v0_0).slice (win0_1.rect t)).set ↔ _
  rw [View.set_slice_whole, Rect.mem_set_unit]
  exact Iff.rfl

/-- Every index of group 0's array is in the block of the point that holds its row. -/
theorem cover1 (i : S16384x256.Idx) : ∃ t : Fin cfg0.N, (cfg0.win 1).flush t = true ∧ i ∈ ((cfg0.win 1).blk t).view.set := by
  have hi0 : (i 0).val < 16384 := (i 0).isLt
  have hi1 : (i 1).val < 256 := (i 1).isLt
  have hlt : (i 0).val / 512 < 32 := by omega
  obtain ⟨-, ⟨e0, e1⟩, -⟩ := idx_facts ⟨(i 0).val / 512, hlt⟩
  refine ⟨⟨(i 0).val / 512, hlt⟩, flush0_1 _, ?_⟩
  rw [mem_blk1]
  intro a
  match a with
  | ⟨0, _⟩ =>
    show win0_1.index ⟨(i 0).val / 512, hlt⟩ (0 : Fin 2) * 512 ≤ (i 0).val ∧ (i 0).val < win0_1.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win0_1.index ⟨(i 0).val / 512, hlt⟩ (1 : Fin 2) * 256 ≤ (i 1).val ∧ (i 1).val < win0_1.index ⟨(i 0).val / 512, hlt⟩ (1 : Fin 2) * 256 + 256
    rw [e1]; omega

/-- Group 0's array after the run: the kept columns of the input. -/
theorem final1 (c : Dev nD) : (dats m 0 c).arrAt 1 cfg0.N = pick 0 (by decide) (m ((c : Thread nD τ).loc main_arg0)) :=
  (dats m 0 c).arrAt_eq_of_cover 1 (grp m 0 (by decide) c) (fun t _ => flushed1_eq m c t) cover1

/-! ### Group 1 (output window 2) -/

theorem block2_apply (x0 : Vec F S512x4096 .f32) (p : Fin 512) (q : Fin 256) :
    out0_2 x0 (ix2 p q) = x0 (ix2 p ⟨srcCol 1 q.val, srcCol_lt (by decide) q.isLt⟩) := by
  have hq := q.isLt
  unfold out0_2
  rw [Value.canon2_eq, View.ld_unit_zero (S := S512x4096) hz]
  show Value.Cat2_0 x0 (Value.csel2_0 (ix2 p q)) (Value.ix2_0 (ix2 p q)) = _
  have hidx : Value.ix2_0 (ix2 p q) = ix2 p ⟨q.val % 32, by omega⟩ := by
    funext a; match a with | ⟨0, _⟩ => rfl | ⟨1, _⟩ => rfl
  rw [hidx]
  obtain ⟨n, hn⟩ : ∃ n : Fin 8, Value.csel2_0 (ix2 p q) = n := ⟨_, rfl⟩
  have hnv : q.val / 32 = n.val := congrArg Fin.val hn
  rw [hn]
  match n, hnv with
  | ⟨0, _⟩, h | ⟨1, _⟩, h | ⟨2, _⟩, h | ⟨3, _⟩, h | ⟨4, _⟩, h | ⟨5, _⟩, h | ⟨6, _⟩, h | ⟨7, _⟩, h =>
    exact slice2_axis1_apply _ x0 _ p _ _ (by
      try dsimp only at h
      show srcCol _ _ = _ + q.val % 32
      unfold srcCol; omega)

theorem flushed2_eq (c : Dev nD) (t : Fin cfg0.N) :
    (dats m 0 c).flushed 2 t = ((cfg0.win 2).blk t).view.read (Elt F) (grp m 1 (by decide) c) := by
  rw [Value.flushed2]
  funext j
  have ht : t.val < 32 := t.isLt
  obtain ⟨-, -, ⟨e0, e1⟩, -⟩ := idx_facts t
  have hj0 : (j 0).val < 512 := (j 0).isLt
  have hj1 : (j 1).val < 256 := (j 1).isLt
  have hj : j = ix2 (⟨(j 0).val, hj0⟩ : Fin 512) (⟨(j 1).val, hj1⟩ : Fin 256) := by
    funext a; match a with | ⟨0, _⟩ => rfl | ⟨1, _⟩ => rfl
  show out0_2 (iblk m c 0 t) j = grp m 1 (by decide) c (((cfg0.win 2).blk t).view.emb j)
  refine (congrArg (out0_2 (iblk m c 0 t)) hj).trans ?_
  refine (block2_apply (iblk m c 0 t) ⟨(j 0).val, hj0⟩ ⟨(j 1).val, hj1⟩).trans ?_
  refine (iblk_apply m c t ⟨(j 0).val, hj0⟩ _ (by show t.val * 512 + (j 0).val < 16384; omega)).trans ?_
  exact (pick_at 1 (by decide) (xarr m c) (((cfg0.win 2).blk t).view.emb j) _ (j 1).val hj1
    (by show win0_2.index t (0 : Fin 2) * 512 + 1 * (j 0).val = t.val * 512 + (j 0).val; omega)
    (by show win0_2.index t (1 : Fin 2) * 256 + 1 * (j 1).val = (j 1).val; omega)).symm

theorem mem_blk2 (t : Fin cfg0.N) (i : S16384x256.Idx) :
    i ∈ ((cfg0.win 2).blk t).view.set ↔ ∀ a : Fin 2, win0_2.index t a * S512x256.size a ≤ (i a).val ∧ (i a).val < win0_2.index t a * S512x256.size a + S512x256.size a := by
  show i ∈ ((View.whole main_v0_1).slice (win0_2.rect t)).set ↔ _
  rw [View.set_slice_whole, Rect.mem_set_unit]
  exact Iff.rfl

theorem cover2 (i : S16384x256.Idx) : ∃ t : Fin cfg0.N, (cfg0.win 2).flush t = true ∧ i ∈ ((cfg0.win 2).blk t).view.set := by
  have hi0 : (i 0).val < 16384 := (i 0).isLt
  have hi1 : (i 1).val < 256 := (i 1).isLt
  have hlt : (i 0).val / 512 < 32 := by omega
  obtain ⟨-, -, ⟨e0, e1⟩, -⟩ := idx_facts ⟨(i 0).val / 512, hlt⟩
  refine ⟨⟨(i 0).val / 512, hlt⟩, flush0_2 _, ?_⟩
  rw [mem_blk2]
  intro a
  match a with
  | ⟨0, _⟩ =>
    show win0_2.index ⟨(i 0).val / 512, hlt⟩ (0 : Fin 2) * 512 ≤ (i 0).val ∧ (i 0).val < win0_2.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win0_2.index ⟨(i 0).val / 512, hlt⟩ (1 : Fin 2) * 256 ≤ (i 1).val ∧ (i 1).val < win0_2.index ⟨(i 0).val / 512, hlt⟩ (1 : Fin 2) * 256 + 256
    rw [e1]; omega

theorem final2 (c : Dev nD) : (dats m 0 c).arrAt 2 cfg0.N = pick 1 (by decide) (m ((c : Thread nD τ).loc main_arg0)) :=
  (dats m 0 c).arrAt_eq_of_cover 2 (grp m 1 (by decide) c) (fun t _ => flushed2_eq m c t) cover2

/-! ### Group 2 (output window 3) -/

theorem block3_apply (x0 : Vec F S512x4096 .f32) (p : Fin 512) (q : Fin 256) :
    out0_3 x0 (ix2 p q) = x0 (ix2 p ⟨srcCol 2 q.val, srcCol_lt (by decide) q.isLt⟩) := by
  have hq := q.isLt
  unfold out0_3
  rw [Value.canon3_eq, View.ld_unit_zero (S := S512x4096) hz]
  show Value.Cat3_0 x0 (Value.csel3_0 (ix2 p q)) (Value.ix3_0 (ix2 p q)) = _
  have hidx : Value.ix3_0 (ix2 p q) = ix2 p ⟨q.val % 32, by omega⟩ := by
    funext a; match a with | ⟨0, _⟩ => rfl | ⟨1, _⟩ => rfl
  rw [hidx]
  obtain ⟨n, hn⟩ : ∃ n : Fin 8, Value.csel3_0 (ix2 p q) = n := ⟨_, rfl⟩
  have hnv : q.val / 32 = n.val := congrArg Fin.val hn
  rw [hn]
  match n, hnv with
  | ⟨0, _⟩, h | ⟨1, _⟩, h | ⟨2, _⟩, h | ⟨3, _⟩, h | ⟨4, _⟩, h | ⟨5, _⟩, h | ⟨6, _⟩, h | ⟨7, _⟩, h =>
    exact slice2_axis1_apply _ x0 _ p _ _ (by
      try dsimp only at h
      show srcCol _ _ = _ + q.val % 32
      unfold srcCol; omega)

theorem flushed3_eq (c : Dev nD) (t : Fin cfg0.N) :
    (dats m 0 c).flushed 3 t = ((cfg0.win 3).blk t).view.read (Elt F) (grp m 2 (by decide) c) := by
  rw [Value.flushed3]
  funext j
  have ht : t.val < 32 := t.isLt
  obtain ⟨-, -, -, ⟨e0, e1⟩, -⟩ := idx_facts t
  have hj0 : (j 0).val < 512 := (j 0).isLt
  have hj1 : (j 1).val < 256 := (j 1).isLt
  have hj : j = ix2 (⟨(j 0).val, hj0⟩ : Fin 512) (⟨(j 1).val, hj1⟩ : Fin 256) := by
    funext a; match a with | ⟨0, _⟩ => rfl | ⟨1, _⟩ => rfl
  show out0_3 (iblk m c 0 t) j = grp m 2 (by decide) c (((cfg0.win 3).blk t).view.emb j)
  refine (congrArg (out0_3 (iblk m c 0 t)) hj).trans ?_
  refine (block3_apply (iblk m c 0 t) ⟨(j 0).val, hj0⟩ ⟨(j 1).val, hj1⟩).trans ?_
  refine (iblk_apply m c t ⟨(j 0).val, hj0⟩ _ (by show t.val * 512 + (j 0).val < 16384; omega)).trans ?_
  exact (pick_at 2 (by decide) (xarr m c) (((cfg0.win 3).blk t).view.emb j) _ (j 1).val hj1
    (by show win0_3.index t (0 : Fin 2) * 512 + 1 * (j 0).val = t.val * 512 + (j 0).val; omega)
    (by show win0_3.index t (1 : Fin 2) * 256 + 1 * (j 1).val = (j 1).val; omega)).symm

theorem mem_blk3 (t : Fin cfg0.N) (i : S16384x256.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v0_2).slice (win0_3.rect t)).set ↔ _
  rw [View.set_slice_whole, Rect.mem_set_unit]
  exact Iff.rfl

theorem cover3 (i : S16384x256.Idx) : ∃ t : Fin cfg0.N, (cfg0.win 3).flush t = true ∧ i ∈ ((cfg0.win 3).blk t).view.set := by
  have hi0 : (i 0).val < 16384 := (i 0).isLt
  have hi1 : (i 1).val < 256 := (i 1).isLt
  have hlt : (i 0).val / 512 < 32 := by omega
  obtain ⟨-, -, -, ⟨e0, e1⟩, -⟩ := idx_facts ⟨(i 0).val / 512, hlt⟩
  refine ⟨⟨(i 0).val / 512, hlt⟩, flush0_3 _, ?_⟩
  rw [mem_blk3]
  intro a
  match a with
  | ⟨0, _⟩ =>
    show win0_3.index ⟨(i 0).val / 512, hlt⟩ (0 : Fin 2) * 512 ≤ (i 0).val ∧ (i 0).val < win0_3.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win0_3.index ⟨(i 0).val / 512, hlt⟩ (1 : Fin 2) * 256 ≤ (i 1).val ∧ (i 1).val < win0_3.index ⟨(i 0).val / 512, hlt⟩ (1 : Fin 2) * 256 + 256
    rw [e1]; omega

theorem final3 (c : Dev nD) : (dats m 0 c).arrAt 3 cfg0.N = pick 2 (by decide) (m ((c : Thread nD τ).loc main_arg0)) :=
  (dats m 0 c).arrAt_eq_of_cover 3 (grp m 2 (by decide) c) (fun t _ => flushed3_eq m c t) cover3

/-! ### Group 3 (output window 4) -/

theorem block4_apply (x0 : Vec F S512x4096 .f32) (p : Fin 512) (q : Fin 256) :
    out0_4 x0 (ix2 p q) = x0 (ix2 p ⟨srcCol 3 q.val, srcCol_lt (by decide) q.isLt⟩) := by
  have hq := q.isLt
  unfold out0_4
  rw [Value.canon4_eq, View.ld_unit_zero (S := S512x4096) hz]
  show Value.Cat4_0 x0 (Value.csel4_0 (ix2 p q)) (Value.ix4_0 (ix2 p q)) = _
  have hidx : Value.ix4_0 (ix2 p q) = ix2 p ⟨q.val % 32, by omega⟩ := by
    funext a; match a with | ⟨0, _⟩ => rfl | ⟨1, _⟩ => rfl
  rw [hidx]
  obtain ⟨n, hn⟩ : ∃ n : Fin 8, Value.csel4_0 (ix2 p q) = n := ⟨_, rfl⟩
  have hnv : q.val / 32 = n.val := congrArg Fin.val hn
  rw [hn]
  match n, hnv with
  | ⟨0, _⟩, h | ⟨1, _⟩, h | ⟨2, _⟩, h | ⟨3, _⟩, h | ⟨4, _⟩, h | ⟨5, _⟩, h | ⟨6, _⟩, h | ⟨7, _⟩, h =>
    exact slice2_axis1_apply _ x0 _ p _ _ (by
      try dsimp only at h
      show srcCol _ _ = _ + q.val % 32
      unfold srcCol; omega)

theorem flushed4_eq (c : Dev nD) (t : Fin cfg0.N) :
    (dats m 0 c).flushed 4 t = ((cfg0.win 4).blk t).view.read (Elt F) (grp m 3 (by decide) c) := by
  rw [Value.flushed4]
  funext j
  have ht : t.val < 32 := t.isLt
  obtain ⟨-, -, -, -, ⟨e0, e1⟩, -⟩ := idx_facts t
  have hj0 : (j 0).val < 512 := (j 0).isLt
  have hj1 : (j 1).val < 256 := (j 1).isLt
  have hj : j = ix2 (⟨(j 0).val, hj0⟩ : Fin 512) (⟨(j 1).val, hj1⟩ : Fin 256) := by
    funext a; match a with | ⟨0, _⟩ => rfl | ⟨1, _⟩ => rfl
  show out0_4 (iblk m c 0 t) j = grp m 3 (by decide) c (((cfg0.win 4).blk t).view.emb j)
  refine (congrArg (out0_4 (iblk m c 0 t)) hj).trans ?_
  refine (block4_apply (iblk m c 0 t) ⟨(j 0).val, hj0⟩ ⟨(j 1).val, hj1⟩).trans ?_
  refine (iblk_apply m c t ⟨(j 0).val, hj0⟩ _ (by show t.val * 512 + (j 0).val < 16384; omega)).trans ?_
  exact (pick_at 3 (by decide) (xarr m c) (((cfg0.win 4).blk t).view.emb j) _ (j 1).val hj1
    (by show win0_4.index t (0 : Fin 2) * 512 + 1 * (j 0).val = t.val * 512 + (j 0).val; omega)
    (by show win0_4.index t (1 : Fin 2) * 256 + 1 * (j 1).val = (j 1).val; omega)).symm

theorem mem_blk4 (t : Fin cfg0.N) (i : S16384x256.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v0_3).slice (win0_4.rect t)).set ↔ _
  rw [View.set_slice_whole, Rect.mem_set_unit]
  exact Iff.rfl

theorem cover4 (i : S16384x256.Idx) : ∃ t : Fin cfg0.N, (cfg0.win 4).flush t = true ∧ i ∈ ((cfg0.win 4).blk t).view.set := by
  have hi0 : (i 0).val < 16384 := (i 0).isLt
  have hi1 : (i 1).val < 256 := (i 1).isLt
  have hlt : (i 0).val / 512 < 32 := by omega
  obtain ⟨-, -, -, -, ⟨e0, e1⟩, -⟩ := idx_facts ⟨(i 0).val / 512, hlt⟩
  refine ⟨⟨(i 0).val / 512, hlt⟩, flush0_4 _, ?_⟩
  rw [mem_blk4]
  intro a
  match a with
  | ⟨0, _⟩ =>
    show win0_4.index ⟨(i 0).val / 512, hlt⟩ (0 : Fin 2) * 512 ≤ (i 0).val ∧ (i 0).val < win0_4.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win0_4.index ⟨(i 0).val / 512, hlt⟩ (1 : Fin 2) * 256 ≤ (i 1).val ∧ (i 1).val < win0_4.index ⟨(i 0).val / 512, hlt⟩ (1 : Fin 2) * 256 + 256
    rw [e1]; omega

theorem final4 (c : Dev nD) : (dats m 0 c).arrAt 4 cfg0.N = pick 3 (by decide) (m ((c : Thread nD τ).loc main_arg0)) :=
  (dats m 0 c).arrAt_eq_of_cover 4 (grp m 3 (by decide) c) (fun t _ => flushed4_eq m c t) cover4

/-! ### Group 4 (output window 5) -/

theorem block5_apply (x0 : Vec F S512x4096 .f32) (p : Fin 512) (q : Fin 256) :
    out0_5 x0 (ix2 p q) = x0 (ix2 p ⟨srcCol 4 q.val, srcCol_lt (by decide) q.isLt⟩) := by
  have hq := q.isLt
  unfold out0_5
  rw [Value.canon5_eq, View.ld_unit_zero (S := S512x4096) hz]
  show Value.Cat5_0 x0 (Value.csel5_0 (ix2 p q)) (Value.ix5_0 (ix2 p q)) = _
  have hidx : Value.ix5_0 (ix2 p q) = ix2 p ⟨q.val % 32, by omega⟩ := by
    funext a; match a with | ⟨0, _⟩ => rfl | ⟨1, _⟩ => rfl
  rw [hidx]
  obtain ⟨n, hn⟩ : ∃ n : Fin 8, Value.csel5_0 (ix2 p q) = n := ⟨_, rfl⟩
  have hnv : q.val / 32 = n.val := congrArg Fin.val hn
  rw [hn]
  match n, hnv with
  | ⟨0, _⟩, h | ⟨1, _⟩, h | ⟨2, _⟩, h | ⟨3, _⟩, h | ⟨4, _⟩, h | ⟨5, _⟩, h | ⟨6, _⟩, h | ⟨7, _⟩, h =>
    exact slice2_axis1_apply _ x0 _ p _ _ (by
      try dsimp only at h
      show srcCol _ _ = _ + q.val % 32
      unfold srcCol; omega)

theorem flushed5_eq (c : Dev nD) (t : Fin cfg0.N) :
    (dats m 0 c).flushed 5 t = ((cfg0.win 5).blk t).view.read (Elt F) (grp m 4 (by decide) c) := by
  rw [Value.flushed5]
  funext j
  have ht : t.val < 32 := t.isLt
  obtain ⟨-, -, -, -, -, ⟨e0, e1⟩, -⟩ := idx_facts t
  have hj0 : (j 0).val < 512 := (j 0).isLt
  have hj1 : (j 1).val < 256 := (j 1).isLt
  have hj : j = ix2 (⟨(j 0).val, hj0⟩ : Fin 512) (⟨(j 1).val, hj1⟩ : Fin 256) := by
    funext a; match a with | ⟨0, _⟩ => rfl | ⟨1, _⟩ => rfl
  show out0_5 (iblk m c 0 t) j = grp m 4 (by decide) c (((cfg0.win 5).blk t).view.emb j)
  refine (congrArg (out0_5 (iblk m c 0 t)) hj).trans ?_
  refine (block5_apply (iblk m c 0 t) ⟨(j 0).val, hj0⟩ ⟨(j 1).val, hj1⟩).trans ?_
  refine (iblk_apply m c t ⟨(j 0).val, hj0⟩ _ (by show t.val * 512 + (j 0).val < 16384; omega)).trans ?_
  exact (pick_at 4 (by decide) (xarr m c) (((cfg0.win 5).blk t).view.emb j) _ (j 1).val hj1
    (by show win0_5.index t (0 : Fin 2) * 512 + 1 * (j 0).val = t.val * 512 + (j 0).val; omega)
    (by show win0_5.index t (1 : Fin 2) * 256 + 1 * (j 1).val = (j 1).val; omega)).symm

theorem mem_blk5 (t : Fin cfg0.N) (i : S16384x256.Idx) :
    i ∈ ((cfg0.win 5).blk t).view.set ↔ ∀ a : Fin 2, win0_5.index t a * S512x256.size a ≤ (i a).val ∧ (i a).val < win0_5.index t a * S512x256.size a + S512x256.size a := by
  show i ∈ ((View.whole main_v0_4).slice (win0_5.rect t)).set ↔ _
  rw [View.set_slice_whole, Rect.mem_set_unit]
  exact Iff.rfl

theorem cover5 (i : S16384x256.Idx) : ∃ t : Fin cfg0.N, (cfg0.win 5).flush t = true ∧ i ∈ ((cfg0.win 5).blk t).view.set := by
  have hi0 : (i 0).val < 16384 := (i 0).isLt
  have hi1 : (i 1).val < 256 := (i 1).isLt
  have hlt : (i 0).val / 512 < 32 := by omega
  obtain ⟨-, -, -, -, -, ⟨e0, e1⟩, -⟩ := idx_facts ⟨(i 0).val / 512, hlt⟩
  refine ⟨⟨(i 0).val / 512, hlt⟩, flush0_5 _, ?_⟩
  rw [mem_blk5]
  intro a
  match a with
  | ⟨0, _⟩ =>
    show win0_5.index ⟨(i 0).val / 512, hlt⟩ (0 : Fin 2) * 512 ≤ (i 0).val ∧ (i 0).val < win0_5.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win0_5.index ⟨(i 0).val / 512, hlt⟩ (1 : Fin 2) * 256 ≤ (i 1).val ∧ (i 1).val < win0_5.index ⟨(i 0).val / 512, hlt⟩ (1 : Fin 2) * 256 + 256
    rw [e1]; omega

theorem final5 (c : Dev nD) : (dats m 0 c).arrAt 5 cfg0.N = pick 4 (by decide) (m ((c : Thread nD τ).loc main_arg0)) :=
  (dats m 0 c).arrAt_eq_of_cover 5 (grp m 4 (by decide) c) (fun t _ => flushed5_eq m c t) cover5

/-! ### Group 5 (output window 6) -/

theorem block6_apply (x0 : Vec F S512x4096 .f32) (p : Fin 512) (q : Fin 256) :
    out0_6 x0 (ix2 p q) = x0 (ix2 p ⟨srcCol 5 q.val, srcCol_lt (by decide) q.isLt⟩) := by
  have hq := q.isLt
  unfold out0_6
  rw [Value.canon6_eq, View.ld_unit_zero (S := S512x4096) hz]
  show Value.Cat6_0 x0 (Value.csel6_0 (ix2 p q)) (Value.ix6_0 (ix2 p q)) = _
  have hidx : Value.ix6_0 (ix2 p q) = ix2 p ⟨q.val % 32, by omega⟩ := by
    funext a; match a with | ⟨0, _⟩ => rfl | ⟨1, _⟩ => rfl
  rw [hidx]
  obtain ⟨n, hn⟩ : ∃ n : Fin 8, Value.csel6_0 (ix2 p q) = n := ⟨_, rfl⟩
  have hnv : q.val / 32 = n.val := congrArg Fin.val hn
  rw [hn]
  match n, hnv with
  | ⟨0, _⟩, h | ⟨1, _⟩, h | ⟨2, _⟩, h | ⟨3, _⟩, h | ⟨4, _⟩, h | ⟨5, _⟩, h | ⟨6, _⟩, h | ⟨7, _⟩, h =>
    exact slice2_axis1_apply _ x0 _ p _ _ (by
      try dsimp only at h
      show srcCol _ _ = _ + q.val % 32
      unfold srcCol; omega)

theorem flushed6_eq (c : Dev nD) (t : Fin cfg0.N) :
    (dats m 0 c).flushed 6 t = ((cfg0.win 6).blk t).view.read (Elt F) (grp m 5 (by decide) c) := by
  rw [Value.flushed6]
  funext j
  have ht : t.val < 32 := t.isLt
  obtain ⟨-, -, -, -, -, -, ⟨e0, e1⟩, -⟩ := idx_facts t
  have hj0 : (j 0).val < 512 := (j 0).isLt
  have hj1 : (j 1).val < 256 := (j 1).isLt
  have hj : j = ix2 (⟨(j 0).val, hj0⟩ : Fin 512) (⟨(j 1).val, hj1⟩ : Fin 256) := by
    funext a; match a with | ⟨0, _⟩ => rfl | ⟨1, _⟩ => rfl
  show out0_6 (iblk m c 0 t) j = grp m 5 (by decide) c (((cfg0.win 6).blk t).view.emb j)
  refine (congrArg (out0_6 (iblk m c 0 t)) hj).trans ?_
  refine (block6_apply (iblk m c 0 t) ⟨(j 0).val, hj0⟩ ⟨(j 1).val, hj1⟩).trans ?_
  refine (iblk_apply m c t ⟨(j 0).val, hj0⟩ _ (by show t.val * 512 + (j 0).val < 16384; omega)).trans ?_
  exact (pick_at 5 (by decide) (xarr m c) (((cfg0.win 6).blk t).view.emb j) _ (j 1).val hj1
    (by show win0_6.index t (0 : Fin 2) * 512 + 1 * (j 0).val = t.val * 512 + (j 0).val; omega)
    (by show win0_6.index t (1 : Fin 2) * 256 + 1 * (j 1).val = (j 1).val; omega)).symm

theorem mem_blk6 (t : Fin cfg0.N) (i : S16384x256.Idx) :
    i ∈ ((cfg0.win 6).blk t).view.set ↔ ∀ a : Fin 2, win0_6.index t a * S512x256.size a ≤ (i a).val ∧ (i a).val < win0_6.index t a * S512x256.size a + S512x256.size a := by
  show i ∈ ((View.whole main_v0_5).slice (win0_6.rect t)).set ↔ _
  rw [View.set_slice_whole, Rect.mem_set_unit]
  exact Iff.rfl

theorem cover6 (i : S16384x256.Idx) : ∃ t : Fin cfg0.N, (cfg0.win 6).flush t = true ∧ i ∈ ((cfg0.win 6).blk t).view.set := by
  have hi0 : (i 0).val < 16384 := (i 0).isLt
  have hi1 : (i 1).val < 256 := (i 1).isLt
  have hlt : (i 0).val / 512 < 32 := by omega
  obtain ⟨-, -, -, -, -, -, ⟨e0, e1⟩, -⟩ := idx_facts ⟨(i 0).val / 512, hlt⟩
  refine ⟨⟨(i 0).val / 512, hlt⟩, flush0_6 _, ?_⟩
  rw [mem_blk6]
  intro a
  match a with
  | ⟨0, _⟩ =>
    show win0_6.index ⟨(i 0).val / 512, hlt⟩ (0 : Fin 2) * 512 ≤ (i 0).val ∧ (i 0).val < win0_6.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win0_6.index ⟨(i 0).val / 512, hlt⟩ (1 : Fin 2) * 256 ≤ (i 1).val ∧ (i 1).val < win0_6.index ⟨(i 0).val / 512, hlt⟩ (1 : Fin 2) * 256 + 256
    rw [e1]; omega

theorem final6 (c : Dev nD) : (dats m 0 c).arrAt 6 cfg0.N = pick 5 (by decide) (m ((c : Thread nD τ).loc main_arg0)) :=
  (dats m 0 c).arrAt_eq_of_cover 6 (grp m 5 (by decide) c) (fun t _ => flushed6_eq m c t) cover6

/-! ### Group 6 (output window 7) -/

theorem block7_apply (x0 : Vec F S512x4096 .f32) (p : Fin 512) (q : Fin 256) :
    out0_7 x0 (ix2 p q) = x0 (ix2 p ⟨srcCol 6 q.val, srcCol_lt (by decide) q.isLt⟩) := by
  have hq := q.isLt
  unfold out0_7
  rw [Value.canon7_eq, View.ld_unit_zero (S := S512x4096) hz]
  show Value.Cat7_0 x0 (Value.csel7_0 (ix2 p q)) (Value.ix7_0 (ix2 p q)) = _
  have hidx : Value.ix7_0 (ix2 p q) = ix2 p ⟨q.val % 32, by omega⟩ := by
    funext a; match a with | ⟨0, _⟩ => rfl | ⟨1, _⟩ => rfl
  rw [hidx]
  obtain ⟨n, hn⟩ : ∃ n : Fin 8, Value.csel7_0 (ix2 p q) = n := ⟨_, rfl⟩
  have hnv : q.val / 32 = n.val := congrArg Fin.val hn
  rw [hn]
  match n, hnv with
  | ⟨0, _⟩, h | ⟨1, _⟩, h | ⟨2, _⟩, h | ⟨3, _⟩, h | ⟨4, _⟩, h | ⟨5, _⟩, h | ⟨6, _⟩, h | ⟨7, _⟩, h =>
    exact slice2_axis1_apply _ x0 _ p _ _ (by
      try dsimp only at h
      show srcCol _ _ = _ + q.val % 32
      unfold srcCol; omega)

theorem flushed7_eq (c : Dev nD) (t : Fin cfg0.N) :
    (dats m 0 c).flushed 7 t = ((cfg0.win 7).blk t).view.read (Elt F) (grp m 6 (by decide) c) := by
  rw [Value.flushed7]
  funext j
  have ht : t.val < 32 := t.isLt
  obtain ⟨-, -, -, -, -, -, -, ⟨e0, e1⟩, -⟩ := idx_facts t
  have hj0 : (j 0).val < 512 := (j 0).isLt
  have hj1 : (j 1).val < 256 := (j 1).isLt
  have hj : j = ix2 (⟨(j 0).val, hj0⟩ : Fin 512) (⟨(j 1).val, hj1⟩ : Fin 256) := by
    funext a; match a with | ⟨0, _⟩ => rfl | ⟨1, _⟩ => rfl
  show out0_7 (iblk m c 0 t) j = grp m 6 (by decide) c (((cfg0.win 7).blk t).view.emb j)
  refine (congrArg (out0_7 (iblk m c 0 t)) hj).trans ?_
  refine (block7_apply (iblk m c 0 t) ⟨(j 0).val, hj0⟩ ⟨(j 1).val, hj1⟩).trans ?_
  refine (iblk_apply m c t ⟨(j 0).val, hj0⟩ _ (by show t.val * 512 + (j 0).val < 16384; omega)).trans ?_
  exact (pick_at 6 (by decide) (xarr m c) (((cfg0.win 7).blk t).view.emb j) _ (j 1).val hj1
    (by show win0_7.index t (0 : Fin 2) * 512 + 1 * (j 0).val = t.val * 512 + (j 0).val; omega)
    (by show win0_7.index t (1 : Fin 2) * 256 + 1 * (j 1).val = (j 1).val; omega)).symm

theorem mem_blk7 (t : Fin cfg0.N) (i : S16384x256.Idx) :
    i ∈ ((cfg0.win 7).blk t).view.set ↔ ∀ a : Fin 2, win0_7.index t a * S512x256.size a ≤ (i a).val ∧ (i a).val < win0_7.index t a * S512x256.size a + S512x256.size a := by
  show i ∈ ((View.whole main_v0_6).slice (win0_7.rect t)).set ↔ _
  rw [View.set_slice_whole, Rect.mem_set_unit]
  exact Iff.rfl

theorem cover7 (i : S16384x256.Idx) : ∃ t : Fin cfg0.N, (cfg0.win 7).flush t = true ∧ i ∈ ((cfg0.win 7).blk t).view.set := by
  have hi0 : (i 0).val < 16384 := (i 0).isLt
  have hi1 : (i 1).val < 256 := (i 1).isLt
  have hlt : (i 0).val / 512 < 32 := by omega
  obtain ⟨-, -, -, -, -, -, -, ⟨e0, e1⟩, -⟩ := idx_facts ⟨(i 0).val / 512, hlt⟩
  refine ⟨⟨(i 0).val / 512, hlt⟩, flush0_7 _, ?_⟩
  rw [mem_blk7]
  intro a
  match a with
  | ⟨0, _⟩ =>
    show win0_7.index ⟨(i 0).val / 512, hlt⟩ (0 : Fin 2) * 512 ≤ (i 0).val ∧ (i 0).val < win0_7.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win0_7.index ⟨(i 0).val / 512, hlt⟩ (1 : Fin 2) * 256 ≤ (i 1).val ∧ (i 1).val < win0_7.index ⟨(i 0).val / 512, hlt⟩ (1 : Fin 2) * 256 + 256
    rw [e1]; omega

theorem final7 (c : Dev nD) : (dats m 0 c).arrAt 7 cfg0.N = pick 6 (by decide) (m ((c : Thread nD τ).loc main_arg0)) :=
  (dats m 0 c).arrAt_eq_of_cover 7 (grp m 6 (by decide) c) (fun t _ => flushed7_eq m c t) cover7

/-! ### Group 7 (output window 8) -/

theorem block8_apply (x0 : Vec F S512x4096 .f32) (p : Fin 512) (q : Fin 256) :
    out0_8 x0 (ix2 p q) = x0 (ix2 p ⟨srcCol 7 q.val, srcCol_lt (by decide) q.isLt⟩) := by
  have hq := q.isLt
  unfold out0_8
  rw [Value.canon8_eq, View.ld_unit_zero (S := S512x4096) hz]
  show Value.Cat8_0 x0 (Value.csel8_0 (ix2 p q)) (Value.ix8_0 (ix2 p q)) = _
  have hidx : Value.ix8_0 (ix2 p q) = ix2 p ⟨q.val % 32, by omega⟩ := by
    funext a; match a with | ⟨0, _⟩ => rfl | ⟨1, _⟩ => rfl
  rw [hidx]
  obtain ⟨n, hn⟩ : ∃ n : Fin 8, Value.csel8_0 (ix2 p q) = n := ⟨_, rfl⟩
  have hnv : q.val / 32 = n.val := congrArg Fin.val hn
  rw [hn]
  match n, hnv with
  | ⟨0, _⟩, h | ⟨1, _⟩, h | ⟨2, _⟩, h | ⟨3, _⟩, h | ⟨4, _⟩, h | ⟨5, _⟩, h | ⟨6, _⟩, h | ⟨7, _⟩, h =>
    exact slice2_axis1_apply _ x0 _ p _ _ (by
      try dsimp only at h
      show srcCol _ _ = _ + q.val % 32
      unfold srcCol; omega)

theorem flushed8_eq (c : Dev nD) (t : Fin cfg0.N) :
    (dats m 0 c).flushed 8 t = ((cfg0.win 8).blk t).view.read (Elt F) (grp m 7 (by decide) c) := by
  rw [Value.flushed8]
  funext j
  have ht : t.val < 32 := t.isLt
  obtain ⟨-, -, -, -, -, -, -, -, ⟨e0, e1⟩⟩ := idx_facts t
  have hj0 : (j 0).val < 512 := (j 0).isLt
  have hj1 : (j 1).val < 256 := (j 1).isLt
  have hj : j = ix2 (⟨(j 0).val, hj0⟩ : Fin 512) (⟨(j 1).val, hj1⟩ : Fin 256) := by
    funext a; match a with | ⟨0, _⟩ => rfl | ⟨1, _⟩ => rfl
  show out0_8 (iblk m c 0 t) j = grp m 7 (by decide) c (((cfg0.win 8).blk t).view.emb j)
  refine (congrArg (out0_8 (iblk m c 0 t)) hj).trans ?_
  refine (block8_apply (iblk m c 0 t) ⟨(j 0).val, hj0⟩ ⟨(j 1).val, hj1⟩).trans ?_
  refine (iblk_apply m c t ⟨(j 0).val, hj0⟩ _ (by show t.val * 512 + (j 0).val < 16384; omega)).trans ?_
  exact (pick_at 7 (by decide) (xarr m c) (((cfg0.win 8).blk t).view.emb j) _ (j 1).val hj1
    (by show win0_8.index t (0 : Fin 2) * 512 + 1 * (j 0).val = t.val * 512 + (j 0).val; omega)
    (by show win0_8.index t (1 : Fin 2) * 256 + 1 * (j 1).val = (j 1).val; omega)).symm

theorem mem_blk8 (t : Fin cfg0.N) (i : S16384x256.Idx) :
    i ∈ ((cfg0.win 8).blk t).view.set ↔ ∀ a : Fin 2, win0_8.index t a * S512x256.size a ≤ (i a).val ∧ (i a).val < win0_8.index t a * S512x256.size a + S512x256.size a := by
  show i ∈ ((View.whole main_v0_7).slice (win0_8.rect t)).set ↔ _
  rw [View.set_slice_whole, Rect.mem_set_unit]
  exact Iff.rfl

theorem cover8 (i : S16384x256.Idx) : ∃ t : Fin cfg0.N, (cfg0.win 8).flush t = true ∧ i ∈ ((cfg0.win 8).blk t).view.set := by
  have hi0 : (i 0).val < 16384 := (i 0).isLt
  have hi1 : (i 1).val < 256 := (i 1).isLt
  have hlt : (i 0).val / 512 < 32 := by omega
  obtain ⟨-, -, -, -, -, -, -, -, ⟨e0, e1⟩⟩ := idx_facts ⟨(i 0).val / 512, hlt⟩
  refine ⟨⟨(i 0).val / 512, hlt⟩, flush0_8 _, ?_⟩
  rw [mem_blk8]
  intro a
  match a with
  | ⟨0, _⟩ =>
    show win0_8.index ⟨(i 0).val / 512, hlt⟩ (0 : Fin 2) * 512 ≤ (i 0).val ∧ (i 0).val < win0_8.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win0_8.index ⟨(i 0).val / 512, hlt⟩ (1 : Fin 2) * 256 ≤ (i 1).val ∧ (i 1).val < win0_8.index ⟨(i 0).val / 512, hlt⟩ (1 : Fin 2) * 256 + 256
    rw [e1]; omega

theorem final8 (c : Dev nD) : (dats m 0 c).arrAt 8 cfg0.N = pick 7 (by decide) (m ((c : Thread nD τ).loc main_arg0)) :=
  (dats m 0 c).arrAt_eq_of_cover 8 (grp m 7 (by decide) c) (fun t _ => flushed8_eq m c t) cover8

/-! ## The run, read -/

/-- The idealized kernel's run with every output array named: group `g` of the input, the input unchanged. -/
theorem run : θ_run defs (onTc (τ := τ) (main (F := F))) ⟨m, fun _ => 0, ρ⟩ fun r => ∀ c : Dev nD,
      r.2.mem ((c : Thread nD τ).loc main_v0_0) = pick 0 (by decide) (m ((c : Thread nD τ).loc main_arg0))
      ∧ r.2.mem ((c : Thread nD τ).loc main_v0_1) = pick 1 (by decide) (m ((c : Thread nD τ).loc main_arg0))
      ∧ r.2.mem ((c : Thread nD τ).loc main_v0_2) = pick 2 (by decide) (m ((c : Thread nD τ).loc main_arg0))
      ∧ r.2.mem ((c : Thread nD τ).loc main_v0_3) = pick 3 (by decide) (m ((c : Thread nD τ).loc main_arg0))
      ∧ r.2.mem ((c : Thread nD τ).loc main_v0_4) = pick 4 (by decide) (m ((c : Thread nD τ).loc main_arg0))
      ∧ r.2.mem ((c : Thread nD τ).loc main_v0_5) = pick 5 (by decide) (m ((c : Thread nD τ).loc main_arg0))
      ∧ r.2.mem ((c : Thread nD τ).loc main_v0_6) = pick 6 (by decide) (m ((c : Thread nD τ).loc main_arg0))
      ∧ r.2.mem ((c : Thread nD τ).loc main_v0_7) = pick 7 (by decide) (m ((c : Thread nD τ).loc main_arg0))
      ∧ r.2.mem ((c : Thread nD τ).loc main_arg0) = m ((c : Thread nD τ).loc main_arg0) :=
  (θ_run defs _ _).mono (fun r h c => ⟨(h c).1.trans (final1 m c),
      (h c).2.1.trans (final2 m c),
      (h c).2.2.1.trans (final3 m c),
      (h c).2.2.2.1.trans (final4 m c),
      (h c).2.2.2.2.1.trans (final5 m c),
      (h c).2.2.2.2.2.1.trans (final6 m c),
      (h c).2.2.2.2.2.2.1.trans (final7 m c),
      (h c).2.2.2.2.2.2.2.1.trans (final8 m c),
      (h c).2.2.2.2.2.2.2.2⟩)
    (Value.run_blocks m ρ)

end Cert.KernelIdeal.Groups

end
-- ==== Proof.RefRun.lean ====
/-
  The reference program's run, read back.

  The reference takes 2048 columns of the input at once — the column numbers are a literal table, kept columns of group 0
  first, then group 1's, … — and cuts the result into eight bands of 256 columns.  jnp's `take` guards its indices: a
  negative one is wrapped by the number of columns, and a position whose wrapped index falls outside `[0, 4095]` would
  read NaN instead of the gathered element.  Here the program is listed as its 32 host operations in order (the two
  helper functions unfolded where they are called), every weakly fair execution is shown to end with each buffer at the
  operations' fold, and each result is named as a band of `taken x`, the guarded gather of the input `x`.
-/
import proofs.«105500_j5720896438285_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem
open Idealize.ShloMosaic.StableHlo

variable {F : FTy → Type} [FloatOps F]

/-! ## The stages -/

/-- The literal table of column numbers, as the vector the first operation writes. -/
def colTable : IVec S2048 32 := fun i => lit0 (S2048.rowMajor i)

/-- The gather's start indices: each column number, wrapped by 4096 when negative, as a `[2048, 1]` column. -/
def startIdx : IVec S2048x1 32 :=
  broadcastInDim S2048x1 ![0] bcast_S2048_S2048x1_0
    (select (cmpi .slt colTable (broadcastInDim S2048 ![] bcast_S_S2048 (constantI S_ 32 0#32)))
      (addi colTable (broadcastInDim S2048 ![] bcast_S_S2048 (constantI S_ 32 4096#32))) colTable)

/-- Per position, whether its start index lies in `[0, 4095]`. -/
def inRange : IVec S2048 1 :=
  Host.reduce IntOp.andi
    (andi (cmpi .sge startIdx (broadcastInDim S2048x1 ![] bcast_S_S2048x1 (constantI S_ 32 0#32)))
      (cmpi .sle startIdx (broadcastInDim S2048x1 ![0, 1] bcast_S1x1_S2048x1_0_1
        (broadcastInDim S1x1 ![1] bcast_S1_S1x1_1 (constantI S1 32 4095#32)))))
    (constantI S_ 1 1#1) reducesTo_S2048x1_S2048_d1 h_S_

/-- The guarded gather: the gathered columns where the index is in range, NaN elsewhere. -/
def taken (x : FVec F S16384x4096 .f32) : FVec F S16384x2048 .f32 :=
  select (broadcastInDim S16384x2048 ![1] bcast_S2048_S16384x2048_1 inRange)
    (Host.gather gather_S16384x4096_S2048x1_S16384x2048_0_1_n_n_1_1_163841 x startIdx)
    (broadcastInDim S16384x2048 ![] bcast_S_S16384x2048 (constant S_ .f32 0x7FC00000#32))

/-! ## The operations -/

/-- @main's 32 operations in order: the table; `_take`'s twenty-three (its call of `_where` is the one select that
    wraps negative indices), written into the call's buffers; the eight band cuts. -/
abbrev ops : List (HloOp τ sig (Elt F)) :=
  [ nullary main_c (fun i => lit0 (S2048.rowMajor i)),
    TRef.nullary main_call0.c (constantI S_ 32 0#32),
    TRef.unary main_call0.c main_call0.v0 (broadcastInDim S2048 ![] bcast_S_S2048),
    TRef.binary (.of main_c) main_call0.v0 main_call0.v1 (cmpi .slt),
    TRef.nullary main_call0.c_0 (constantI S_ 32 4096#32),
    TRef.unary main_call0.c_0 main_call0.v2 (broadcastInDim S2048 ![] bcast_S_S2048),
    TRef.binary (.of main_c) main_call0.v2 main_call0.v3 addi,
    TRef.ternary main_call0.v1 main_call0.v3 (.of main_c) main_call0.call0.v0 select,
    TRef.unary main_call0.call0.v0 main_call0.v5 (broadcastInDim S2048x1 ![0] bcast_S2048_S2048x1_0),
    TRef.nullary main_call0.c_1 (constantI S1 32 4095#32),
    TRef.nullary main_call0.c_2 (constantI S_ 32 0#32),
    TRef.unary main_call0.c_2 main_call0.v6 (broadcastInDim S2048x1 ![] bcast_S_S2048x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S2048x1 ![0, 1] bcast_S1x1_S2048x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2048x1_S2048_d1 h_S_),
    TRef.binary (.of main_arg0) main_call0.v5 main_call0.v13 (fun x i => Host.gather gather_S16384x4096_S2048x1_S16384x2048_0_1_n_n_1_1_163841 x i),
    TRef.unary main_call0.v12 main_call0.v14 (broadcastInDim S16384x2048 ![1] bcast_S2048_S16384x2048_1),
    TRef.nullary main_call0.cst (constant S_ .f32 0x7FC00000#32),
    TRef.unary main_call0.cst main_call0.v15 (broadcastInDim S16384x2048 ![] bcast_S_S16384x2048),
    TRef.ternary main_call0.v14 main_call0.v13 main_call0.v15 main_call0.v16 select,
    unary main_v0 main_v1 ((extractStridedSlice S16384x256 ![0, 0] · slices_S16384x2048_S16384x256_0_0) : (⟨S16384x2048, .f32⟩ : BufTy).Contents (Elt F) → (⟨S16384x256, .f32⟩ : BufTy).Contents (Elt F)),
    unary main_v0 main_v2 ((extractStridedSlice S16384x256 ![0, 256] · slices_S16384x2048_S16384x256_0_256) : (⟨S16384x2048, .f32⟩ : BufTy).Contents (Elt F) → (⟨S16384x256, .f32⟩ : BufTy).Contents (Elt F)),
    unary main_v0 main_v3 ((extractStridedSlice S16384x256 ![0, 512] · slices_S16384x2048_S16384x256_0_512) : (⟨S16384x2048, .f32⟩ : BufTy).Contents (Elt F) → (⟨S16384x256, .f32⟩ : BufTy).Contents (Elt F)),
    unary main_v0 main_v4 ((extractStridedSlice S16384x256 ![0, 768] · slices_S16384x2048_S16384x256_0_768) : (⟨S16384x2048, .f32⟩ : BufTy).Contents (Elt F) → (⟨S16384x256, .f32⟩ : BufTy).Contents (Elt F)),
    unary main_v0 main_v5 ((extractStridedSlice S16384x256 ![0, 1024] · slices_S16384x2048_S16384x256_0_1024) : (⟨S16384x2048, .f32⟩ : BufTy).Contents (Elt F) → (⟨S16384x256, .f32⟩ : BufTy).Contents (Elt F)),
    unary main_v0 main_v6 ((extractStridedSlice S16384x256 ![0, 1280] · slices_S16384x2048_S16384x256_0_1280) : (⟨S16384x2048, .f32⟩ : BufTy).Contents (Elt F) → (⟨S16384x256, .f32⟩ : BufTy).Contents (Elt F)),
    unary main_v0 main_v7 ((extractStridedSlice S16384x256 ![0, 1536] · slices_S16384x2048_S16384x256_0_1536) : (⟨S16384x2048, .f32⟩ : BufTy).Contents (Elt F) → (⟨S16384x256, .f32⟩ : BufTy).Contents (Elt F)),
    unary main_v0 main_v8 ((extractStridedSlice S16384x256 ![0, 1792] · slices_S16384x2048_S16384x256_0_1792) : (⟨S16384x2048, .f32⟩ : BufTy).Contents (Elt F) → (⟨S16384x256, .f32⟩ : BufTy).Contents (Elt F)) ]

set_option maxRecDepth 1024 in
/-- @main is that straight line: the two functions unfolded at their calls, the sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., unary_bufs_sub .., unary_bufs_sub .., unary_bufs_sub .., unary_bufs_sub ..,
    unary_bufs_sub .., unary_bufs_sub ..⟩

/-- Every weakly fair execution of @main terminates, each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HostRun

end
-- ==== Proof.RefBands.lean ====
/-
  What the reference's buffers hold after its run.

  Result `k` (of eight) is the band of 256 columns from `256 (k - 1)` of the guarded gather `taken x` of the argument
  `x`, and no operation writes the argument: the operations' fold read at each result buffer, each operation's result
  taken where it is written and the other buffers left as they were.
-/
import proofs.«105500_j5720896438285_1_alg».proof.Proof.RefRun

noncomputable section

namespace Cert.ReferenceIdeal.HostRun

open Cert.ReferenceIdeal Cert.ReferenceIdeal.Gen Idealize.ShloMosaic Idealize.ShloMosaic.TcCoe Idealize.SL.Sem
open Idealize.ShloMosaic.StableHlo

variable {F : FTy → Type} [FloatOps F]

/-- The argument is written by no operation. -/
theorem arg0_eq (V : Valuation τ sig (Elt F)) :
    after ops V (main_arg0 : DevRef τ sig) = V (main_arg0 : DevRef τ sig) := by
  after_results_simp

set_option maxRecDepth 8192 in
set_option maxHeartbeats 1000000 in
theorem v1_eq (V : Valuation τ sig (Elt F)) :
    after ops V (main_v1 : DevRef τ sig)
      = extractStridedSlice S16384x256 ![0, 0] (taken (V (main_arg0 : DevRef τ sig))) slices_S16384x2048_S16384x256_0_0 := by
  unfold taken inRange startIdx colTable
  after_results_simp
  <;> (try simp only [TRef.ofBuf, TRef.toBuf, cast_eq])
  <;> rfl

set_option maxRecDepth 8192 in
set_option maxHeartbeats 1000000 in
theorem v2_eq (V : Valuation τ sig (Elt F)) :
    after ops V (main_v2 : DevRef τ sig)
      = extractStridedSlice S16384x256 ![0, 256] (taken (V (main_arg0 : DevRef τ sig))) slices_S16384x2048_S16384x256_0_256 := by
  unfold taken inRange startIdx colTable
  after_results_simp
  <;> (try simp only [TRef.ofBuf, TRef.toBuf, cast_eq])
  <;> rfl

set_option maxRecDepth 8192 in
set_option maxHeartbeats 1000000 in
theorem v3_eq (V : Valuation τ sig (Elt F)) :
    after ops V (main_v3 : DevRef τ sig)
      = extractStridedSlice S16384x256 ![0, 512] (taken (V (main_arg0 : DevRef τ sig))) slices_S16384x2048_S16384x256_0_512 := by
  unfold taken inRange startIdx colTable
  after_results_simp
  <;> (try simp only [TRef.ofBuf, TRef.toBuf, cast_eq])
  <;> rfl

set_option maxRecDepth 8192 in
set_option maxHeartbeats 1000000 in
theorem v4_eq (V : Valuation τ sig (Elt F)) :
    after ops V (main_v4 : DevRef τ sig)
      = extractStridedSlice S16384x256 ![0, 768] (taken (V (main_arg0 : DevRef τ sig))) slices_S16384x2048_S16384x256_0_768 := by
  unfold taken inRange startIdx colTable
  after_results_simp
  <;> (try simp only [TRef.ofBuf, TRef.toBuf, cast_eq])
  <;> rfl

set_option maxRecDepth 8192 in
set_option maxHeartbeats 1000000 in
theorem v5_eq (V : Valuation τ sig (Elt F)) :
    after ops V (main_v5 : DevRef τ sig)
      = extractStridedSlice S16384x256 ![0, 1024] (taken (V (main_arg0 : DevRef τ sig))) slices_S16384x2048_S16384x256_0_1024 := by
  unfold taken inRange startIdx colTable
  after_results_simp
  <;> (try simp only [TRef.ofBuf, TRef.toBuf, cast_eq])
  <;> rfl

set_option maxRecDepth 8192 in
set_option maxHeartbeats 1000000 in
theorem v6_eq (V : Valuation τ sig (Elt F)) :
    after ops V (main_v6 : DevRef τ sig)
      = extractStridedSlice S16384x256 ![0, 1280] (taken (V (main_arg0 : DevRef τ sig))) slices_S16384x2048_S16384x256_0_1280 := by
  unfold taken inRange startIdx colTable
  after_results_simp
  <;> (try simp only [TRef.ofBuf, TRef.toBuf, cast_eq])
  <;> rfl

set_option maxRecDepth 8192 in
set_option maxHeartbeats 1000000 in
theorem v7_eq (V : Valuation τ sig (Elt F)) :
    after ops V (main_v7 : DevRef τ sig)
      = extractStridedSlice S16384x256 ![0, 1536] (taken (V (main_arg0 : DevRef τ sig))) slices_S16384x2048_S16384x256_0_1536 := by
  unfold taken inRange startIdx colTable
  after_results_simp
  <;> (try simp only [TRef.ofBuf, TRef.toBuf, cast_eq])
  <;> rfl

set_option maxRecDepth 8192 in
set_option maxHeartbeats 1000000 in
theorem v8_eq (V : Valuation τ sig (Elt F)) :
    after ops V (main_v8 : DevRef τ sig)
      = extractStridedSlice S16384x256 ![0, 1792] (taken (V (main_arg0 : DevRef τ sig))) slices_S16384x2048_S16384x256_0_1792 := by
  unfold taken inRange startIdx colTable
  after_results_simp
  <;> (try simp only [TRef.ofBuf, TRef.toBuf, cast_eq])
  <;> rfl

/-- The run with every result named: band `k` of the guarded gather of the argument, the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = extractStridedSlice S16384x256 ![0, 0] (taken (m ((c.tc : Thread nD τ).loc main_arg0))) slices_S16384x2048_S16384x256_0_0
      ∧ r.2.mem ((c.tc : Thread nD τ).loc main_v2) = extractStridedSlice S16384x256 ![0, 256] (taken (m ((c.tc : Thread nD τ).loc main_arg0))) slices_S16384x2048_S16384x256_0_256
      ∧ r.2.mem ((c.tc : Thread nD τ).loc main_v3) = extractStridedSlice S16384x256 ![0, 512] (taken (m ((c.tc : Thread nD τ).loc main_arg0))) slices_S16384x2048_S16384x256_0_512
      ∧ r.2.mem ((c.tc : Thread nD τ).loc main_v4) = extractStridedSlice S16384x256 ![0, 768] (taken (m ((c.tc : Thread nD τ).loc main_arg0))) slices_S16384x2048_S16384x256_0_768
      ∧ r.2.mem ((c.tc : Thread nD τ).loc main_v5) = extractStridedSlice S16384x256 ![0, 1024] (taken (m ((c.tc : Thread nD τ).loc main_arg0))) slices_S16384x2048_S16384x256_0_1024
      ∧ r.2.mem ((c.tc : Thread nD τ).loc main_v6) = extractStridedSlice S16384x256 ![0, 1280] (taken (m ((c.tc : Thread nD τ).loc main_arg0))) slices_S16384x2048_S16384x256_0_1280
      ∧ r.2.mem ((c.tc : Thread nD τ).loc main_v7) = extractStridedSlice S16384x256 ![0, 1536] (taken (m ((c.tc : Thread nD τ).loc main_arg0))) slices_S16384x2048_S16384x256_0_1536
      ∧ r.2.mem ((c.tc : Thread nD τ).loc main_v8) = extractStridedSlice S16384x256 ![0, 1792] (taken (m ((c.tc : Thread nD τ).loc main_arg0))) slices_S16384x2048_S16384x256_0_1792
      ∧ r.2.mem ((c.tc : Thread nD τ).loc main_arg0) = m ((c.tc : Thread nD τ).loc main_arg0) :=
  (θ_run defs _ _).mono (fun _ h c => ⟨(h c main_v1).trans (v1_eq _), (h c main_v2).trans (v2_eq _), (h c main_v3).trans (v3_eq _),
      (h c main_v4).trans (v4_eq _), (h c main_v5).trans (v5_eq _), (h c main_v6).trans (v6_eq _), (h c main_v7).trans (v7_eq _),
      (h c main_v8).trans (v8_eq _), (h c main_arg0).trans (arg0_eq _)⟩)
    (run_all m ρ)

end Cert.ReferenceIdeal.HostRun

end
-- ==== Proof.LibTakeCols.lean ====
/-
  Taking columns of a matrix by an index vector, read at one element.

  `jnp.take(x, idx, axis=1)` of `x : [R, N]` at `idx : [C]` lowers to a `stablehlo.gather` whose start indices are
  `idx` laid out as `[C, 1]`: offset axis `0` (the rows pass through whole), collapsed slice axis `1`, start index map
  `[1]`, index vector axis `1`, slice sizes `[R, 1]`.  Its element `(r, p)` is `x` at row `r` and at the column
  `idx[p]`, that column read as a signed integer and clamped into `[0, N - 1]` as every gather start is.
-/
import Idealize.ShloMosaic.Lib.ValueIdx

noncomputable section

namespace Idealize.ShloMosaic.TakeCols

open Idealize.ShloMosaic Idealize.ShloMosaic.ValueIdx

variable {α : Type}

/-- The dimension numbers of a column take: operand `[R, N]`, start indices `[C, 1]`, result `[R, C]`. -/
abbrev takeColsDims (R N C : Nat)
    (wf : GatherDims.WF ⟨2, ![R, N]⟩ ⟨2, ![C, 1]⟩ ⟨2, ![R, C]⟩ [0] [1] [] [1] [] 1 ![R, 1]) :
    GatherDims ⟨2, ![R, N]⟩ ⟨2, ![C, 1]⟩ ⟨2, ![R, C]⟩ where
  offsetDims := [0]
  collapsedSliceDims := [1]
  operandBatchingDims := []
  startIndicesBatchingDims := []
  startIndexMap := [1]
  indexVectorDim := 1
  sliceSizes := ![R, 1]
  wf := wf

/-- The column take at `(r, p)`: row `r` of the operand at the column the `p`-th start index names, read signed and
    clamped to the last column. -/
theorem gather_takeCols_apply {R N C w : Nat} (hN : 0 < N)
    (wf : GatherDims.WF ⟨2, ![R, N]⟩ ⟨2, ![C, 1]⟩ ⟨2, ![R, C]⟩ [0] [1] [] [1] [] 1 ![R, 1])
    (x : (⟨2, ![R, N]⟩ : Shape).Idx → α) (idx : IVec ⟨2, ![C, 1]⟩ w) (r : Fin R) (p : Fin C) :
    Host.gather (takeColsDims R N C wf) x idx (ix2 r p)
      = x (ix2 r ⟨min (idx (ix2 p ⟨0, Nat.one_pos⟩)).toInt.toNat (N - 1), by omega⟩) := by
  unfold Host.gather
  congr 1
  funext a
  refine Fin.ext ?_
  show (takeColsDims R N C wf).start (ix2 r p) idx a + (takeColsDims R N C wf).batchCoord (ix2 r p) a
      + (takeColsDims R N C wf).offCoord (ix2 r p) a = _
  rw [GatherDims.batchCoord_eq_zero _ _ _ List.not_mem_nil, Nat.add_zero]
  match a with
  | ⟨0, h0⟩ =>
    -- the row axis: no start index names it, and it is the one offset axis
    have hne : (⟨0, h0⟩ : Fin 2) ∉ ([1] : List (Fin 2)) :=
      fun h => absurd (congrArg Fin.val (List.mem_singleton.mp h)) Nat.zero_ne_one
    have hs : (takeColsDims R N C wf).start (ix2 r p) idx ⟨0, h0⟩ = 0 := by
      unfold GatherDims.start
      rw [dif_neg hne]
    have hk : (⟨0, h0⟩ : Fin 2) ∈ (takeColsDims R N C wf).sKept :=
      ((takeColsDims R N C wf).mem_sKept _).mpr ⟨hne, List.not_mem_nil⟩
    have ho : (takeColsDims R N C wf).offCoord (ix2 r p) ⟨0, h0⟩ = r.val := by
      unfold GatherDims.offCoord
      rw [dif_pos hk]
      rfl
    show (takeColsDims R N C wf).start (ix2 r p) idx ⟨0, h0⟩ + (takeColsDims R N C wf).offCoord (ix2 r p) ⟨0, h0⟩ = r.val
    rw [hs, ho, Nat.zero_add]
  | ⟨1, h1⟩ =>
    -- the column axis: collapsed, its start the clamped index
    have hin : (⟨1, h1⟩ : Fin 2) ∈ ([1] : List (Fin 2)) := List.mem_singleton.mpr rfl
    have ho : (takeColsDims R N C wf).offCoord (ix2 r p) ⟨1, h1⟩ = 0 :=
      GatherDims.offCoord_eq_zero _ _ _ (fun h => (((takeColsDims R N C wf).mem_sKept _).mp h).1 hin)
    show (takeColsDims R N C wf).start (ix2 r p) idx ⟨1, h1⟩ + (takeColsDims R N C wf).offCoord (ix2 r p) ⟨1, h1⟩
      = min (idx (ix2 p ⟨0, Nat.one_pos⟩)).toInt.toNat (N - 1)
    rw [ho, Nat.add_zero]
    unfold GatherDims.start
    rw [dif_pos (show (⟨1, h1⟩ : Fin 2) ∈ (takeColsDims R N C wf).startIndexMap from hin)]
    have hsi : (takeColsDims R N C wf).siIdx (ix2 r p) ⟨List.idxOf (⟨1, h1⟩ : Fin 2) (takeColsDims R N C wf).startIndexMap,
        List.idxOf_lt_length_iff.2 hin⟩ = ix2 p ⟨0, Nat.one_pos⟩ := by
      funext b; refine Fin.ext ?_
      match b with
      | ⟨0, _⟩ => rfl
      | ⟨1, _⟩ => rfl
    rw [hsi]
    rfl

end Idealize.ShloMosaic.TakeCols

end
-- ==== Proof.RefValue.lean ====
/-
  The reference's results are the kept columns of its argument.

  The literal table holds, at position `p`, the column `512 g + 64 (q / 32) + q % 32` for `g = p / 256`, `q = p % 256`:
  none is negative and none exceeds 4095 (decided over the table's 2048 entries).  So the wrap leaves each index as it is,
  the range test is true at every position, the guarded gather selects the gathered element everywhere, and the gather's
  clamp leaves the index alone: `taken x` at `(r, p)` is `x` at `(r, that column)`.  Band `g` (columns `256 g …`) of it is
  then `ColumnPick.pick g x`.
-/
import proofs.«105500_j5720896438285_1_alg».proof.Proof.RefBands
import proofs.«105500_j5720896438285_1_alg».proof.Proof.ColumnPick
import proofs.«105500_j5720896438285_1_alg».proof.Proof.LibTakeCols
import Idealize.ShloMosaic.Lib.Pipeline.Value
import Idealize.ShloMosaic.PureOps.Reduce
import Idealize.ShloMosaic.Lib.ValueLayout

noncomputable section

namespace Cert.ReferenceIdeal.Kept

open Cert.ReferenceIdeal Cert.ReferenceIdeal.Gen Cert.ReferenceIdeal.HostRun Idealize.ShloMosaic
open Idealize.ShloMosaic.ValueIdx Idealize.ShloMosaic.TakeCols Cert.ColumnPick

variable {F : FTy → Type} [FloatOps F]

/-! ## The table -/

/-- jnp's wrap of a negative index, on one word. -/
def wrapIdx (v : BitVec 32) : BitVec 32 := Scalar.select (IntOp.cmpi .slt v 0#32) (IntOp.addi v 4096#32) v

/-- Decided over the 2048 entries: each wrapped entry passes the range test, and read signed and clamped to the last
    column it is the kept column of its position. -/
theorem table_facts : ∀ p : Fin 2048,
    IntOp.andi (IntOp.cmpi .sge (wrapIdx (lit0 p)) 0#32) (IntOp.cmpi .sle (wrapIdx (lit0 p)) 4095#32) = 1#1
    ∧ min (wrapIdx (lit0 p)).toInt.toNat (4096 - 1) = srcCol (p.val / 256) (p.val % 256) := by
  decide +kernel

/-! ## The stages at a coordinate -/

/-- The table's vector at position `p`. -/
theorem colTable_apply (p : Fin 2048) : colTable (ix1 p) = lit0 p := by
  show lit0 (S2048.rowMajor (ix1 p)) = lit0 p
  congr 1
  exact Fin.ext (Shape.rowMajor_val_one (ix1 p))

/-- The start index of position `p` is its wrapped table entry. -/
theorem startIdx_apply (p : Fin 2048) : startIdx (ix2 p ⟨0, Nat.one_pos⟩) = wrapIdx (lit0 p) := by
  unfold startIdx
  refine (broadcastInDim_apply _ _ _ (ix2 p ⟨0, Nat.one_pos⟩) (ix1 p) (fun a => by match a with | ⟨0, _⟩ => rfl)).trans ?_
  show Scalar.select (IntOp.cmpi .slt (colTable (ix1 p)) 0#32) (IntOp.addi (colTable (ix1 p)) 4096#32) (colTable (ix1 p)) = _
  rw [colTable_apply]
  rfl

/-- A left fold by `and` from 1 over ones is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- Every position's start index is in range. -/
theorem inRange_apply (j : S2048.Idx) : inRange j = 1#1 := by
  unfold inRange
  rw [Host.reduce_eq_foldl]
  refine foldl_andi_ones _ (fun i => ?_) _
  have hi1 : (i 1).val < 1 := (i 1).isLt
  have hi : i = ix2 (⟨(i 0).val, (i 0).isLt⟩ : Fin 2048) (⟨0, Nat.one_pos⟩ : Fin 1) := by
    funext a
    match a with
    | ⟨0, _⟩ => rfl
    | ⟨1, _⟩ => exact Fin.ext (by show (i 1).val = 0; omega)
  rw [hi]
  show IntOp.andi (IntOp.cmpi .sge (startIdx (ix2 _ ⟨0, Nat.one_pos⟩)) 0#32)
    (IntOp.cmpi .sle (startIdx (ix2 _ ⟨0, Nat.one_pos⟩)) 4095#32) = 1#1
  rw [startIdx_apply]
  exact (table_facts _).1

/-- The guarded gather at `(r, p)`: the argument at row `r`, the kept column of position `p`. -/
theorem taken_apply (x : FVec F S16384x4096 .f32) (r : Fin 16384) (p : Fin 2048)
    (hc : srcCol (p.val / 256) (p.val % 256) < 4096) :
    taken x (ix2 r p) = x (ix2 r ⟨srcCol (p.val / 256) (p.val % 256), hc⟩) := by
  unfold taken
  show Scalar.select (broadcastInDim S16384x2048 ![1] bcast_S2048_S16384x2048_1 inRange (ix2 r p))
    (Host.gather gather_S16384x4096_S2048x1_S16384x2048_0_1_n_n_1_1_163841 x startIdx (ix2 r p)) _ = _
  rw [broadcastInDim_apply _ _ _ (ix2 r p) (ix1 p) (fun a => by match a with | ⟨0, _⟩ => rfl), inRange_apply, select_one]
  refine (gather_takeCols_apply (R := 16384) (N := 4096) (C := 2048) (by decide)
    gather_S16384x4096_S2048x1_S16384x2048_0_1_n_n_1_1_163841_wf x startIdx r p).trans ?_
  have e : min (startIdx (ix2 p ⟨0, Nat.one_pos⟩)).toInt.toNat (4096 - 1) = srcCol (p.val / 256) (p.val % 256) := by
    rw [startIdx_apply]; exact (table_facts p).2
  congr 1
  funext a
  match a with
  | ⟨0, _⟩ => rfl
  | ⟨1, _⟩ => exact Fin.ext e

/-! ## The bands -/

/-- Band `g` of the guarded gather is group `g` of the argument. -/
theorem band_eq (g : Nat) (hg : g < 8) (x : FVec F S16384x4096 .f32) (h : S16384x2048.Slices ![0, 256 * g] S16384x256) :
    extractStridedSlice S16384x256 ![0, 256 * g] (taken x) h = pick g hg x := by
  funext i
  have hi0 : (i 0).val < 16384 := (i 0).isLt
  have hi1 : (i 1).val < 256 := (i 1).isLt
  have hi : i = ix2 (⟨(i 0).val, hi0⟩ : Fin 16384) (⟨(i 1).val, hi1⟩ : Fin 256) := by
    funext a; match a with | ⟨0, _⟩ => rfl | ⟨1, _⟩ => rfl
  rw [hi, slice2_axis1_eq, pick_apply]
  have hq : (256 * g + (i 1).val) / 256 = g ∧ (256 * g + (i 1).val) % 256 = (i 1).val := by omega
  refine (taken_apply x _ ⟨256 * g + (i 1).val, by omega⟩ (by
    show srcCol ((256 * g + (i 1).val) / 256) ((256 * g + (i 1).val) % 256) < 4096
    rw [hq.1, hq.2]; exact srcCol_lt hg hi1)).trans ?_
  congr 1
  funext a
  match a with
  | ⟨0, _⟩ => rfl
  | ⟨1, _⟩ => exact Fin.ext (by show srcCol ((256 * g + (i 1).val) / 256) ((256 * g + (i 1).val) % 256) = srcCol g (i 1).val; rw [hq.1, hq.2])

end Cert.ReferenceIdeal.Kept

end
-- ==== Proof.lean ====
/-
  The kernel and its reference are one column selection.

  The input is a matrix of 16384 rows and 4096 columns and there are eight outputs of 256 columns.  Output `g` holds,
  row by row, the input columns `512 g + 64 n + k` for `n < 8`, `k < 32`, in that order: output column `q` is input
  column `512 g + 64 (q / 32) + q % 32` (`ColumnPick.pick g`).

  The kernel walks the rows in 32 tiles of 512; in each tile it concatenates, for each output, eight 32-column slices of
  the staged input tile and stores the result whole, so each output array ends as that selection (`KernelGroups`).
  The reference gathers all 2048 kept columns at once through a literal index table, guarded by a range test that
  every entry of the table passes, and cuts the result into eight bands (`RefRun`, `RefBands`, `RefValue`).
  No arithmetic is done on the elements, so nothing is asked of the inputs: the precondition is never opened.
  The ideal pass rewrote nothing, so the idealization claim is empty.
-/
import proofs.«105500_j5720896438285_1_alg».proof.Defs
import proofs.«105500_j5720896438285_1_alg».proof.Proof.Gen.Kernel
import proofs.«105500_j5720896438285_1_alg».proof.Proof.Gen.Kernel.Skeleton
import proofs.«105500_j5720896438285_1_alg».proof.Proof.Gen.Kernel.Launch
import proofs.«105500_j5720896438285_1_alg».proof.Proof.Gen.Kernel.Points
import proofs.«105500_j5720896438285_1_alg».proof.Proof.Gen.Kernel.Frame
import proofs.«105500_j5720896438285_1_alg».proof.Proof.Gen.KernelIdeal
import proofs.«105500_j5720896438285_1_alg».proof.Proof.Gen.KernelIdeal.Skeleton
import proofs.«105500_j5720896438285_1_alg».proof.Proof.Gen.KernelIdeal.Launch
import proofs.«105500_j5720896438285_1_alg».proof.Proof.Gen.KernelIdeal.Points
import proofs.«105500_j5720896438285_1_alg».proof.Proof.Gen.KernelIdeal.Frame
import proofs.«105500_j5720896438285_1_alg».proof.Proof.Gen.KernelIdeal.Value
import proofs.«105500_j5720896438285_1_alg».proof.Proof.Gen.ReferenceIdeal
import proofs.«105500_j5720896438285_1_alg».proof.Proof.Gen.Pre_finite_inputs
import proofs.«105500_j5720896438285_1_alg».proof.Proof.KernelGroups
import proofs.«105500_j5720896438285_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its argument alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, its results forgotten: it terminates and no operation writes the argument. -/
theorem frame_ri : Cert.frame_ReferenceIdeal := fun m ρ _ =>
  (θ_run Cert.ReferenceIdeal.defs _ _).mono (fun _ h c => (h c).2.2.2.2.2.2.2.2)
    (Cert.ReferenceIdeal.HostRun.run (F := Ideal) m ρ)

/-- The ideal pass rewrote no operation. -/
theorem preserves : Cert.preserves_Kernel_KernelIdeal := trivial

/-- From agreeing arguments both programs end with output `g` at group `g` of the argument: the kernel's arrays by its
    tiles, the reference's bands by its table. -/
theorem algebraic : Cert.algebraic_KernelIdeal_ReferenceIdeal := by
  intro m ρ m' ρ' _ hagree
  refine ⟨_, _, _, _, _, _, _, _, Cert.KernelIdeal.Groups.run (F := Ideal) m ρ, ?_⟩
  refine (θ_run Cert.ReferenceIdeal.defs _ _).mono (fun _ h c => ?_)
    (Cert.ReferenceIdeal.HostRun.run (F := Ideal) m' ρ')
  obtain ⟨h1, h2, h3, h4, h5, h6, h7, h8, h0⟩ := h c
  refine ⟨h1.trans ?_, h2.trans ?_, h3.trans ?_, h4.trans ?_, h5.trans ?_, h6.trans ?_, h7.trans ?_, h8.trans ?_, h0⟩
  · rw [hagree c]; exact Cert.ReferenceIdeal.Kept.band_eq 0 (by decide) _ _
  · rw [hagree c]; exact Cert.ReferenceIdeal.Kept.band_eq 1 (by decide) _ _
  · rw [hagree c]; exact Cert.ReferenceIdeal.Kept.band_eq 2 (by decide) _ _
  · rw [hagree c]; exact Cert.ReferenceIdeal.Kept.band_eq 3 (by decide) _ _
  · rw [hagree c]; exact Cert.ReferenceIdeal.Kept.band_eq 4 (by decide) _ _
  · rw [hagree c]; exact Cert.ReferenceIdeal.Kept.band_eq 5 (by decide) _ _
  · rw [hagree c]; exact Cert.ReferenceIdeal.Kept.band_eq 6 (by decide) _ _
  · rw [hagree c]; exact Cert.ReferenceIdeal.Kept.band_eq 7 (by decide) _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
